-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S64x64x4096 : Shape := ⟨3, ![64, 64, 4096]⟩
abbrev S_ : Shape := ⟨0, ![]⟩
abbrev S8x4096x256 : Shape := ⟨3, ![8, 4096, 256]⟩
abbrev S8x4096x4096 : Shape := ⟨3, ![8, 4096, 4096]⟩
abbrev S8x64x64x4096 : Shape := ⟨4, ![8, 64, 64, 4096]⟩
abbrev S1x64x64x4096 : Shape := ⟨4, ![1, 64, 64, 4096]⟩
abbrev S8x4096 : Shape := ⟨2, ![8, 4096]⟩
abbrev S8x1x1x4096 : Shape := ⟨4, ![8, 1, 1, 4096]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S64x64x4096 : S_.BroadcastsInDim S64x64x4096 (![] : Fin 0 → Fin S64x64x4096.rank)
  reducesTo_S64x64x4096_S_d0_1_2 : S64x64x4096.ReducesTo [0, 1, 2] S_
  shapeCasts_S8x64x64x256_S8x4096x256 : S8x64x64x256.ShapeCasts S8x4096x256
  shapeCasts_S8x4096x4096_S8x64x64x4096 : S8x4096x4096.ShapeCasts S8x64x64x4096
  bcast_S64x64x4096_S1x64x64x4096_1_2_3 : S64x64x4096.BroadcastsInDim S1x64x64x4096 (![1, 2, 3] : Fin 3 → Fin S1x64x64x4096.rank)
  bcast_S1x64x64x4096_S8x64x64x4096_0_1_2_3 : S1x64x64x4096.BroadcastsInDim S8x64x64x4096 (![0, 1, 2, 3] : Fin 4 → Fin S8x64x64x4096.rank)
  reducesTo_S8x64x64x4096_S8x4096_d1_2 : S8x64x64x4096.ReducesTo [1, 2] S8x4096
  bcast_S8x4096_S8x1x1x4096_0_3 : S8x4096.BroadcastsInDim S8x1x1x4096 (![0, 3] : Fin 2 → Fin S8x1x1x4096.rank)
  bcast_S_S8x1x1x4096 : S_.BroadcastsInDim S8x1x1x4096 (![] : Fin 0 → Fin S8x1x1x4096.rank)
  reducesTo_S8x1x1x4096_S_d0_1_2_3 : S8x1x1x4096.ReducesTo [0, 1, 2, 3] S_
  dot_S8x4096x256_S8x4096x256_S8x4096x4096_2_2_1_1_0_0_wf : DotDims.WF S8x4096x256 S8x4096x256 S8x4096x4096 [2] [2] [1] [1] [0] [0]

variable [Facts]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def fn_part1 {F : FTy → Type} [FloatOps F] (main_arg2 : FVec F S64x64x4096 .f32) (main_v13 : IVec S_ 1) (main_v17 : FVec F S8x64x64x4096 .f32) : IVec S_ 1 :=
  let main_v18 : FVec F S1x64x64x4096 .f32 := broadcastInDim S1x64x64x4096 ![1, 2, 3] bcast_S64x64x4096_S1x64x64x4096_1_2_3 main_arg2
  let main_v19 : FVec F S8x64x64x4096 .f32 := broadcastInDim S8x64x64x4096 ![0, 1, 2, 3] bcast_S1x64x64x4096_S8x64x64x4096_0_1_2_3 main_v18
  let main_v20 : FVec F S8x64x64x4096 .f32 := mulf main_v17 main_v19
  let main_cst_4 : FVec F S_ .f32 := constant S_ .f32 0x00000000#32
  let main_v21 : FVec F S8x4096 .f32 := (fun x v => Host.reduceAdd x v reducesTo_S8x64x64x4096_S8x4096_d1_2 h_S_) main_v20 main_cst_4
  let main_v22 : FVec F S8x1x1x4096 .f32 := broadcastInDim S8x1x1x4096 ![0, 3] bcast_S8x4096_S8x1x1x4096_0_3 main_v21
  let main_cst_5 : FVec F S_ .f32 := constant S_ .f32 0x322BCC77#32
  let main_v23 : FVec F S8x1x1x4096 .f32 := broadcastInDim S8x1x1x4096 ![] bcast_S_S8x1x1x4096 main_cst_5
  let main_v24 : FVec F S8x1x1x4096 .f32 := addf main_v22 main_v23
  let main_cst_6 : FVec F S_ .f32 := constant S_ .f32 0x00000000#32
  let main_v25 : FVec F S8x1x1x4096 .f32 := broadcastInDim S8x1x1x4096 ![] bcast_S_S8x1x1x4096 main_cst_6
  let main_v26 : IVec S8x1x1x4096 1 := cmpf .une main_v24 main_v25
  let main_c_7 : IVec S_ 1 := constantI S_ 1 1#1
  let main_v27 : IVec S_ 1 := (fun x v => Host.reduce IntOp.andi x v reducesTo_S8x1x1x4096_S_d0_1_2_3 h_S_) main_v26 main_c_7
  let main_v28 : IVec S_ 1 := andi main_v13 main_v27
  main_v28

def fn {F : FTy → Type} [FloatOps F] (main_arg0 : FVec F S8x64x64x256 .f32) (main_arg1 : FVec F S8x64x64x256 .f32) (main_arg2 : FVec F S64x64x4096 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S8x64x64x256 .f32 := Host.absf main_arg1
  let main_cst_0 : FVec F S_ .f32 := constant S_ .f32 0x7F800000#32
  let main_v5 : FVec F S8x64x64x256 .f32 := broadcastInDim S8x64x64x256 ![] bcast_S_S8x64x64x256 main_cst_0
  let main_v6 : IVec S8x64x64x256 1 := cmpf .olt main_v4 main_v5
  let main_c_1 : IVec S_ 1 := constantI S_ 1 1#1
  let main_v7 : IVec S_ 1 := (fun x v => Host.reduce IntOp.andi x v reducesTo_S8x64x64x256_S_d0_1_2_3 h_S_) main_v6 main_c_1
  let main_v8 : IVec S_ 1 := andi main_v3 main_v7
  let main_v9 : FVec F S64x64x4096 .f32 := Host.absf main_arg2
  let main_cst_2 : FVec F S_ .f32 := constant S_ .f32 0x7F800000#32
  let main_v10 : FVec F S64x64x4096 .f32 := broadcastInDim S64x64x4096 ![] bcast_S_S64x64x4096 main_cst_2
  let main_v11 : IVec S64x64x4096 1 := cmpf .olt main_v9 main_v10
  let main_c_3 : IVec S_ 1 := constantI S_ 1 1#1
  let main_v12 : IVec S_ 1 := (fun x v => Host.reduce IntOp.andi x v reducesTo_S64x64x4096_S_d0_1_2 h_S_) main_v11 main_c_3
  let main_v13 : IVec S_ 1 := andi main_v8 main_v12
  let main_v14 : FVec F S8x4096x256 .f32 := shapeCast S8x4096x256 main_arg0 shapeCasts_S8x64x64x256_S8x4096x256
  let main_v15 : FVec F S8x4096x256 .f32 := shapeCast S8x4096x256 main_arg1 shapeCasts_S8x64x64x256_S8x4096x256
  let main_v16 : FVec F S8x4096x4096 .f32 := (fun l r => Host.dotGeneral dot_S8x4096x256_S8x4096x256_S8x4096x4096_2_2_1_1_0_0 none l r) main_v15 main_v14
  let main_v17 : FVec F S8x64x64x4096 .f32 := shapeCast S8x64x64x4096 main_v16 shapeCasts_S8x4096x4096_S8x64x64x4096
  fn_part1 (F := F) main_arg2 main_v13 main_v17
-- ==== Kernel.lean ====
abbrev S8x64x64x256 : Shape := ⟨4, ![8, 64, 64, 256]⟩
abbrev S64x64x4096 : Shape := ⟨3, ![64, 64, 4096]⟩
abbrev S8x4096x256 : Shape := ⟨3, ![8, 4096, 256]⟩
abbrev S4096x4096 : Shape := ⟨2, ![4096, 4096]⟩
abbrev S8x4096x4096 : Shape := ⟨3, ![8, 4096, 4096]⟩
abbrev S1x512x256 : Shape := ⟨3, ![1, 512, 256]⟩
abbrev S1x4096x256 : Shape := ⟨3, ![1, 4096, 256]⟩
abbrev S4096x512 : Shape := ⟨2, ![4096, 512]⟩
abbrev S1x4096x512 : Shape := ⟨3, ![1, 4096, 512]⟩
abbrev S512x256 : Shape := ⟨2, ![512, 256]⟩
abbrev S4096x256 : Shape := ⟨2, ![4096, 256]⟩
abbrev S256x512 : Shape := ⟨2, ![256, 512]⟩
abbrev S512 : Shape := ⟨1, ![512]⟩
abbrev S1x512 : Shape := ⟨2, ![1, 512]⟩
abbrev S8x64x64x4096 : Shape := ⟨4, ![8, 64, 64, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64x256, .f32⟩
  | .hbm, ⟨1, _⟩ => ⟨S8x64x64x256, .f32⟩
  | .hbm, ⟨2, _⟩ => ⟨S64x64x4096, .f32⟩
  | .hbm, ⟨3, _⟩ => ⟨S8x4096x256, .f32⟩
  | .hbm, ⟨4, _⟩ => ⟨S8x4096x256, .f32⟩
  | .hbm, ⟨5, _⟩ => ⟨S4096x4096, .f32⟩
  | .hbm, ⟨6, _⟩ => ⟨S8x4096x4096, .f32⟩
  | .hbm, ⟨7, _⟩ => ⟨S8x64x64x4096, .f32⟩
  | .local _ .vmem, ⟨0, _⟩ => ⟨S1x512x256, .f32⟩
  | .local _ .vmem, ⟨1, _⟩ => ⟨S1x512x256, .f32⟩
  | .local _ .vmem, ⟨2, _⟩ => ⟨S1x4096x256, .f32⟩
  | .local _ .vmem, ⟨3, _⟩ => ⟨S1x4096x256, .f32⟩
  | .local _ .vmem, ⟨4, _⟩ => ⟨S4096x512, .f32⟩
  | .local _ .vmem, ⟨5, _⟩ => ⟨S4096x512, .f32⟩
  | .local _ .vmem, ⟨6, _⟩ => ⟨S1x4096x512, .f32⟩
  | .local _ .vmem, ⟨7, _⟩ => ⟨S1x4096x512, .f32⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x64x64x256_S8x4096x256 : S8x64x64x256.ShapeCasts S8x4096x256
  shapeCasts_S64x64x4096_S4096x4096 : S64x64x4096.ShapeCasts S4096x4096
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  transposes_S512x256_p1_0_S256x512 : S512x256.Transposes [1, 0] S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S4096x512_S512 : S4096x512.Reduces [0] S512
  shapeCasts_S512_S1x512 : S512.ShapeCasts S1x512
  broadcasts_S1x512_S4096x512 : S1x512.Broadcasts S4096x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  shapeCasts_S8x4096x4096_S8x64x64x4096 : S8x4096x4096.ShapeCasts S8x64x64x4096
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .f32 = 32 ∨ (Rect.block (s := S8x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x256.size a
  hwx0_1 : ∀ i : grid0.Coords, EltTy.bits .f32 = 32 ∨ (Rect.block (s := S8x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .f32 = 32 ∨ (Rect.block (s := S4096x4096) S4096x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x512.size a ≤ S8x4096x4096.size a
  hwx0_3 : ∀ i : grid0.Coords, EltTy.bits .f32 = 32 ∨ (Rect.block (s := S8x4096x4096) S1x4096x512.size (cc0_transform_3 i) (hinb0_3 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_v0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x64x256 : Shape := ⟨4, ![8, 64, 64, 256]⟩
abbrev S64x64x4096 : Shape := ⟨3, ![64, 64, 4096]⟩
abbrev S8x4096x256 : Shape := ⟨3, ![8, 4096, 256]⟩
abbrev S8x4096x4096 : Shape := ⟨3, ![8, 4096, 4096]⟩
abbrev S8x64x64x4096 : Shape := ⟨4, ![8, 64, 64, 4096]⟩
abbrev S1x64x64x4096 : Shape := ⟨4, ![1, 64, 64, 4096]⟩
abbrev S_ : Shape := ⟨0, ![]⟩
abbrev S8x4096 : Shape := ⟨2, ![8, 4096]⟩
abbrev S8x1x1x4096 : Shape := ⟨4, ![8, 1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S8x64x64x256, .f32⟩
  | .hbm, ⟨2, _⟩ => ⟨S64x64x4096, .f32⟩
  | .hbm, ⟨3, _⟩ => ⟨S8x4096x256, .f32⟩
  | .hbm, ⟨4, _⟩ => ⟨S8x4096x256, .f32⟩
  | .hbm, ⟨5, _⟩ => ⟨S8x4096x4096, .f32⟩
  | .hbm, ⟨6, _⟩ => ⟨S8x64x64x4096, .f32⟩
  | .hbm, ⟨7, _⟩ => ⟨S1x64x64x4096, .f32⟩
  | .hbm, ⟨8, _⟩ => ⟨S8x64x64x4096, .f32⟩
  | .hbm, ⟨9, _⟩ => ⟨S8x64x64x4096, .f32⟩
  | .hbm, ⟨10, _⟩ => ⟨S_, .f32⟩
  | .hbm, ⟨11, _⟩ => ⟨S8x4096, .f32⟩
  | .hbm, ⟨12, _⟩ => ⟨S8x1x1x4096, .f32⟩
  | .hbm, ⟨13, _⟩ => ⟨S_, .f32⟩
  | .hbm, ⟨14, _⟩ => ⟨S8x1x1x4096, .f32⟩
  | .hbm, ⟨15, _⟩ => ⟨S8x1x1x4096, .f32⟩
  | .hbm, ⟨16, _⟩ => ⟨S_, .f32⟩
  | .hbm, ⟨17, _⟩ => ⟨S8x1x1x4096, .f32⟩
  | .hbm, ⟨18, _⟩ => ⟨S8x1x1x4096, .f32⟩
  | .hbm, ⟨19, _⟩ => ⟨S8x64x64x4096, .f32⟩
  | .hbm, ⟨20, _⟩ => ⟨S8x64x64x4096, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S8x64x64x256_S8x4096x256 : S8x64x64x256.ShapeCasts S8x4096x256
  shapeCasts_S8x4096x4096_S8x64x64x4096 : S8x4096x4096.ShapeCasts S8x64x64x4096
  bcast_S64x64x4096_S1x64x64x4096_1_2_3 : S64x64x4096.BroadcastsInDim S1x64x64x4096 (![1, 2, 3] : Fin 3 → Fin S1x64x64x4096.rank)
  bcast_S1x64x64x4096_S8x64x64x4096_0_1_2_3 : S1x64x64x4096.BroadcastsInDim S8x64x64x4096 (![0, 1, 2, 3] : Fin 4 → Fin S8x64x64x4096.rank)
  reducesTo_S8x64x64x4096_S8x4096_d1_2 : S8x64x64x4096.ReducesTo [1, 2] S8x4096
  h_S_ : 0 < S_.numel
  bcast_S8x4096_S8x1x1x4096_0_3 : S8x4096.BroadcastsInDim S8x1x1x4096 (![0, 3] : Fin 2 → Fin S8x1x1x4096.rank)
  bcast_S_S8x1x1x4096 : S_.BroadcastsInDim S8x1x1x4096 (![] : Fin 0 → Fin S8x1x1x4096.rank)
  bcast_S8x1x1x4096_S8x64x64x4096_0_1_2_3 : S8x1x1x4096.BroadcastsInDim S8x64x64x4096 (![0, 1, 2, 3] : Fin 4 → Fin S8x64x64x4096.rank)
  dot_S8x4096x256_S8x4096x256_S8x4096x4096_2_2_1_1_0_0_wf : DotDims.WF S8x4096x256 S8x4096x256 S8x4096x4096 [2] [2] [1] [1] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.Spec.lean ====
/-
  The mathematics both programs compute, stated once over the three argument arrays.

  A feature map is f32[8, 64, 64, 256]: batch, image row, image column, channel. Pixel p = 64 * row + column runs over
  0 … 4095. For a batch b, a B pixel q and an A pixel k:

    chanDot b q k    = sum over the 256 channels c of  B[b, q, c] * A[b, k, c]
    weighted b q k = chanDot b q k * W[q, k]                     (W is f32[64, 64, 4096]: B pixel's row, column, then A pixel)
    divisor b k    = (sum over all 4096 B pixels q of weighted b q k) + eps

  The kernel leaves weighted / divisor, the reference weighted * (1 / divisor). On the extended reals the quotient
  x / d is x * d⁻¹ whenever d is not 0, and then 1 / d = 1 * d⁻¹ = d⁻¹, so the two agree at every x, infinite ones
  included; at d = 0 they do not (0 / 0 and 0 * (1 / 0) differ), which is why the divisor is required to be nonzero.
-/
import Idealize.ShloMosaic.PureOps.Ideal.Laws
import Idealize.ShloMosaic.Lib.ValueIdx

noncomputable section

open Idealize.ShloMosaic Idealize.ShloMosaic.ValueIdx

namespace Cert.Corr

abbrev SFeat : Shape := ⟨4, ![8, 64, 64, 256]⟩
abbrev SWgt : Shape := ⟨3, ![64, 64, 4096]⟩
abbrev SFlat : Shape := ⟨3, ![8, 4096, 4096]⟩
abbrev SOut : Shape := ⟨4, ![8, 64, 64, 4096]⟩

/-! ## Pixels of the 64 × 64 image, row-major -/

/-- The image row of pixel `p`. -/
def prow (p : Fin 4096) : Fin 64 := ⟨p.val / 64, by have := p.isLt; omega⟩
/-- The image column of pixel `p`. -/
def pcol (p : Fin 4096) : Fin 64 := ⟨p.val % 64, by omega⟩
/-- The pixel at row `h`, column `w`. -/
def pix (h w : Fin 64) : Fin 4096 := ⟨h.val * 64 + w.val, by have := h.isLt; have := w.isLt; omega⟩

theorem prow_val (p : Fin 4096) : (prow p).val = p.val / 64 := rfl
theorem pcol_val (p : Fin 4096) : (pcol p).val = p.val % 64 := rfl
theorem pix_val (h w : Fin 64) : (pix h w).val = h.val * 64 + w.val := rfl

theorem prow_pix (h w : Fin 64) : prow (pix h w) = h := Fin.ext (by rw [prow_val, pix_val]; have := w.isLt; omega)
theorem pcol_pix (h w : Fin 64) : pcol (pix h w) = w := Fin.ext (by rw [pcol_val, pix_val]; have := w.isLt; omega)

/-- A sum over the 4096 pixels is the sum over the rows of the sums over the columns. -/
theorem sum_pixels {M : Type} [AddCommMonoid M] (f : Fin 4096 → M) :
    ∑ q : Fin 4096, f q = ∑ h : Fin 64, ∑ w : Fin 64, f (pix h w) := by
  rw [← Fintype.sum_prod_type']
  refine (Fintype.sum_equiv (finProdFinEquiv (m := 64) (n := 64)) (fun x => f (pix x.1 x.2)) f fun x => ?_).symm
  refine congrArg f (Fin.ext ?_)
  rw [pix_val]
  show _ = x.2.val + 64 * x.1.val
  omega

/-! ## The correlation, its weighting and the divisor -/

/-- The word 0x322BCC77: the f32 nearest to 1e-8, as an exact real. Both programs carry this same word. -/
abbrev eps : EReal := Ideal.ofBits .f32 0x322BCC77#32

/-- The inner product over the 256 channels of B's pixel `q` and A's pixel `k` in batch `b`. -/
def chanDot (A B : SFeat.Idx → EReal) (b : Fin 8) (q k : Fin 4096) : EReal :=
  ∑ c : Fin 256, B (ix4 b (prow q) (pcol q) c) * A (ix4 b (prow k) (pcol k) c)

/-- The inner product times the weight of the pair (B pixel `q`, A pixel `k`). -/
def weighted (A B : SFeat.Idx → EReal) (W : SWgt.Idx → EReal) (b : Fin 8) (q k : Fin 4096) : EReal :=
  chanDot A B b q k * W (ix3 (prow q) (pcol q) k)

/-- The sum of the weighted products over all B pixels, plus eps. -/
def divisor (A B : SFeat.Idx → EReal) (W : SWgt.Idx → EReal) (b : Fin 8) (k : Fin 4096) : EReal :=
  (∑ q : Fin 4096, weighted A B W b q k) + eps

/-- What the kernel's region writes, over [8, 4096, 4096]: the weighted product DIVIDED BY the divisor. -/
def quotientForm (A B : SFeat.Idx → EReal) (W : SWgt.Idx → EReal) : SFlat.Idx → EReal :=
  fun i => Ideal.div (weighted A B W (i 0) (i 1) (i 2)) (divisor A B W (i 0) (i 2))

/-- The same with the B pixel split into row and column: the kernel's result after its last reshape. -/
def quotientOut (A B : SFeat.Idx → EReal) (W : SWgt.Idx → EReal) : SOut.Idx → EReal :=
  fun i => Ideal.div (weighted A B W (i 0) (pix (i 1) (i 2)) (i 3)) (divisor A B W (i 0) (i 3))

/-- What the reference computes, over [8, 64, 64, 4096]: the weighted product TIMES the quotient of 1.0 by the divisor. -/
def reciprocalOut (A B : SFeat.Idx → EReal) (W : SWgt.Idx → EReal) : SOut.Idx → EReal :=
  fun i => weighted A B W (i 0) (pix (i 1) (i 2)) (i 3) * Ideal.div (Ideal.ofBits .f32 0x3F800000#32) (divisor A B W (i 0) (i 3))

/-! ## The law that joins them -/

/-- The word 0x3F800000 is the real 1. -/
theorem one_f32 : Ideal.ofBits .f32 0x3F800000#32 = 1 := by
  simp [Ideal.ofBits, Ideal.ieee, -EReal.coe_mul]; norm_num

/-- By a divisor that is not zero, dividing is multiplying by the quotient of one: both are `x * d⁻¹`, whatever
    extended real `x` is and also for an infinite `d`. -/
theorem div_eq_mul_one_div (x d : EReal) (hd : d ≠ 0) :
    Ideal.div x d = x * Ideal.div (Ideal.ofBits .f32 0x3F800000#32) d := by
  rw [one_f32, Ideal.div, Ideal.div, if_neg hd, if_neg hd, one_mul]

/-- So where no divisor is zero the two results are one array. -/
theorem quotientOut_eq_reciprocalOut (A B : SFeat.Idx → EReal) (W : SWgt.Idx → EReal)
    (hd : ∀ b k, divisor A B W b k ≠ 0) : quotientOut A B W = reciprocalOut A B W :=
  funext fun i => div_eq_mul_one_div _ _ (hd (i 0) (i 3))

end Cert.Corr

end
-- ==== Proof.KernelBlock.lean ====
/-
  What one grid point of the kernel stores, entry by entry.

  At a grid point the body holds three blocks: `x0`, 512 A pixels by 256 channels; `x1`, all 4096 B pixels by 256
  channels; `x2`, the 4096 by 512 block of weights. It forms P[q, r] = (sum over channels c of x1[q, c] * x0[r, c]) * x2[q, r],
  sums P down each column r over the 4096 rows q, adds eps to the column sum and divides every entry of the column by that.
  The change of format to bf16 before the matrix product is the identity on extended reals, and the matrix
  product into a zero accumulator is the plain sum of products.
-/
import proofs.«134228_j3435973837203_1_alg».proof.Proof.Gen.KernelIdeal.Skeleton
import proofs.«134228_j3435973837203_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Block

open Cert.KernelIdeal Cert.KernelIdeal.Facts₀ Cert.Corr
open Cert.KernelIdeal.Gen (k0_pay1)

/-! ## The matrix product's operand indices, axis by axis

Output entry (q, r) with contraction coordinate c reads the left operand at (q, c) and the right operand at (c, r). -/

theorem lhs_ax0 (i : S4096x512.Idx) (k : dot_S4096x256_S256x512_S4096x512_1_0_0_1_n_n.contr.Idx) :
    (dot_S4096x256_S256x512_S4096x512_1_0_0_1_n_n.lhsIdx i k 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
theorem lhs_ax1 (i : S4096x512.Idx) (k : dot_S4096x256_S256x512_S4096x512_1_0_0_1_n_n.contr.Idx) :
    (dot_S4096x256_S256x512_S4096x512_1_0_0_1_n_n.lhsIdx i k 1).val = (k ⟨0, by decide⟩).val :=
  dot_S4096x256_S256x512_S4096x512_1_0_0_1_n_n.lhsIdx_val_of_single rfl i k
theorem rhs_ax0 (i : S4096x512.Idx) (k : dot_S4096x256_S256x512_S4096x512_1_0_0_1_n_n.contr.Idx) :
    (dot_S4096x256_S256x512_S4096x512_1_0_0_1_n_n.rhsIdx i k 0).val = (k ⟨0, by decide⟩).val :=
  dot_S4096x256_S256x512_S4096x512_1_0_0_1_n_n.rhsIdx_val_of_single rfl i k
theorem rhs_ax1 (i : S4096x512.Idx) (k : dot_S4096x256_S256x512_S4096x512_1_0_0_1_n_n.contr.Idx) :
    (dot_S4096x256_S256x512_S4096x512_1_0_0_1_n_n.rhsIdx i k 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- The matrix product into the zero accumulator, at entry (q, r): the sum over the 256 channels of the products. -/
theorem matmul_at (lhs : FVec Ideal S4096x256 .bf16) (rhs : FVec Ideal S256x512 .bf16) (q : Fin 4096) (r : Fin 512) :
    matmul dot_S4096x256_S256x512_S4096x512_1_0_0_1_n_n none lhs rhs (constant (F := Ideal) S4096x512 .f32 0x00000000#32) (ix2 q r)
      = ∑ c : Fin 256, lhs (ix2 q c) * rhs (ix2 c r) := by
  simp only [matmul]
  rw [Ideal.matmul_constant_zero_apply, ← Equiv.sum_comp (ValueIdx.contrEquiv1 dot_S4096x256_S256x512_S4096x512_1_0_0_1_n_n 256 rfl rfl).symm]
  refine Finset.sum_congr rfl fun c _ => ?_
  have hk := ValueIdx.contrEquiv1_symm_val dot_S4096x256_S256x512_S4096x512_1_0_0_1_n_n 256 rfl rfl c
  have el : dot_S4096x256_S256x512_S4096x512_1_0_0_1_n_n.lhsIdx (ix2 q r) ((ValueIdx.contrEquiv1 dot_S4096x256_S256x512_S4096x512_1_0_0_1_n_n 256 rfl rfl).symm c) = ix2 q c := funext fun a => Fin.ext (by
    match a with
    | ⟨0, _⟩ => exact lhs_ax0 _ _
    | ⟨1, _⟩ => exact (lhs_ax1 _ _).trans hk)
  have er : dot_S4096x256_S256x512_S4096x512_1_0_0_1_n_n.rhsIdx (ix2 q r) ((ValueIdx.contrEquiv1 dot_S4096x256_S256x512_S4096x512_1_0_0_1_n_n 256 rfl rfl).symm c) = ix2 c r := funext fun a => Fin.ext (by
    match a with
    | ⟨0, _⟩ => exact (rhs_ax0 _ _).trans hk
    | ⟨1, _⟩ => exact rhs_ax1 _ _)
  rw [el, er]

/-! ## The two operands, read at an entry -/

/-- The left operand is the B block with its unit axis dropped. -/
theorem left_at (x1 : Vec Ideal S1x4096x256 .f32) (q : Fin 4096) (c : Fin 256) :
    (truncf .bf16 (shapeCast S4096x256 x1 shapeCasts_S1x4096x256_S4096x256) bitsLt_bf16_f32 : FVec Ideal S4096x256 .bf16) (ix2 q c)
      = x1 (ix3 0 q c) := by
  show shapeCast S4096x256 x1 shapeCasts_S1x4096x256_S4096x256 (ix2 q c) = _
  refine (shapeCast_dropUnit_apply ![4096, 256] x1 shapeCasts_S1x4096x256_S4096x256 (ix2 q c)).trans ?_
  refine congrArg x1 (funext fun a => ?_)
  match a with
  | ⟨0, _⟩ => rfl
  | ⟨1, _⟩ => rfl
  | ⟨2, _⟩ => rfl

/-- The right operand is the A block with its unit axis dropped, transposed. -/
theorem right_at (x0 : Vec Ideal S1x512x256 .f32) (c : Fin 256) (r : Fin 512) :
    (transpose S256x512 [1, 0] (truncf .bf16 (shapeCast S512x256 x0 shapeCasts_S1x512x256_S512x256) bitsLt_bf16_f32 : FVec Ideal S512x256 .bf16)
        transposes_S512x256_p1_0_S256x512 : FVec Ideal S256x512 .bf16) (ix2 c r)
      = x0 (ix3 0 r c) := by
  refine (transpose_apply [1, 0] _ transposes_S512x256_p1_0_S256x512 (ix2 c r) (ix2 r c) (fun b => ?_)).trans ?_
  · match b with
    | ⟨0, _⟩ => rfl
    | ⟨1, _⟩ => rfl
  · show shapeCast S512x256 x0 shapeCasts_S1x512x256_S512x256 (ix2 r c) = _
    refine (shapeCast_dropUnit_apply ![512, 256] x0 shapeCasts_S1x512x256_S512x256 (ix2 r c)).trans (congrArg x0 (funext fun a => ?_))
    match a with
    | ⟨0, _⟩ => rfl
    | ⟨1, _⟩ => rfl
    | ⟨2, _⟩ => rfl

/-! ## The weighted products of a block, and their column sums -/

/-- The block of weighted products, as the body forms it. -/
def prodBlk (x0 : Vec Ideal S1x512x256 .f32) (x1 : Vec Ideal S1x4096x256 .f32) (x2 : Vec Ideal S4096x512 .f32) : FVec Ideal S4096x512 .f32 :=
  mulf (matmul dot_S4096x256_S256x512_S4096x512_1_0_0_1_n_n none
      (truncf .bf16 (shapeCast S4096x256 x1 shapeCasts_S1x4096x256_S4096x256) bitsLt_bf16_f32)
      (transpose S256x512 [1, 0] (truncf .bf16 (shapeCast S512x256 x0 shapeCasts_S1x512x256_S512x256) bitsLt_bf16_f32) transposes_S512x256_p1_0_S256x512)
      (constant S4096x512 .f32 0x00000000#32))
    (shapeCast S4096x512 x2 shapeCasts_S4096x512_S4096x512)

/-- Entry (q, r) of it: the inner product of B row q and A row r of the blocks, times the weight. -/
theorem prodBlk_apply (x0 : Vec Ideal S1x512x256 .f32) (x1 : Vec Ideal S1x4096x256 .f32) (x2 : Vec Ideal S4096x512 .f32)
    (q : Fin 4096) (r : Fin 512) :
    prodBlk x0 x1 x2 (ix2 q r) = (∑ c : Fin 256, x1 (ix3 0 q c) * x0 (ix3 0 r c)) * x2 (ix2 q r) := by
  unfold prodBlk
  rw [mulf_apply, matmul_at, shapeCast_self]
  refine congrArg (· * x2 (ix2 q r)) (Finset.sum_congr rfl fun c _ => ?_)
  rw [left_at, right_at]

/-- The sum down column r of a 4096 × 512 block. -/
theorem colsum_at (v : FVec Ideal S4096x512 .f32) (r : Fin 512) :
    multiReduction (F := Ideal) .add [0] S512 v 0x00000000#32 reduces_S4096x512_S512 (.inl rfl) rfl (ix1 r)
      = ∑ q : Fin 4096, v (ix2 q r) := by
  refine (Ideal.multiReduction_add_single v 0x00000000#32 reduces_S4096x512_S512 (.inl rfl) rfl (ix1 r)).trans ?_
  refine Finset.sum_congr rfl fun q _ => congrArg v (funext fun a => Fin.ext ?_)
  match a with
  | ⟨0, _⟩ => rfl
  | ⟨1, _⟩ => rfl

/-! ## The stored value -/

/-- Entry (0, q, r) of what the body stores: the weighted product over its column's sum plus eps. -/
theorem pay_apply (x0 : Vec Ideal S1x512x256 .f32) (x1 : Vec Ideal S1x4096x256 .f32) (x2 : Vec Ideal S4096x512 .f32)
    (q : Fin 4096) (r : Fin 512) :
    k0_pay1 (F := Ideal) x0 x1 x2 (ix3 0 q r)
      = Ideal.div (prodBlk x0 x1 x2 (ix2 q r)) ((∑ q' : Fin 4096, prodBlk x0 x1 x2 (ix2 q' r)) + eps) := by
  show shapeCast S1x4096x512 (divf (prodBlk x0 x1 x2) (broadcastTo S4096x512 (addf (shapeCast S1x512 (multiReduction .add [0] S512 (prodBlk x0 x1 x2) 0x00000000#32 reduces_S4096x512_S512 (.inl rfl) rfl) shapeCasts_S512_S1x512) (broadcast S1x512 (Scalar.ofBits .f32 0x322BCC77#32))) broadcasts_S1x512_S4096x512)) shapeCasts_S4096x512_S1x4096x512 (ix3 0 q r) = _
  refine (shapeCast_addUnit_apply ![4096, 512] _ shapeCasts_S4096x512_S1x4096x512 (ix3 0 q r)).trans ?_
  have e2 : (fun a : Fin 2 => (ix3 (0 : Fin 1) q r) a.succ) = ix2 q r := funext fun a => by
    match a with
    | ⟨0, _⟩ => rfl
    | ⟨1, _⟩ => rfl
  rw [e2, divf_apply]
  refine congrArg (Ideal.div (prodBlk x0 x1 x2 (ix2 q r))) ?_
  refine (broadcastTo_apply _ broadcasts_S1x512_S4096x512 (ix2 q r) (ix2 (0 : Fin 1) r) (fun a => ?_)).trans ?_
  · match a with
    | ⟨0, _⟩ => show (0 : ℕ) = if (1 : ℕ) = 1 then 0 else _; rw [if_pos rfl]
    | ⟨1, _⟩ => show r.val = if (512 : ℕ) = 1 then 0 else r.val; rw [if_neg (by decide)]
  · rw [addf_apply, broadcast_apply]
    refine congrArg (· + eps) ?_
    refine (shapeCast_addUnit_apply ![512] _ shapeCasts_S512_S1x512 (ix2 (0 : Fin 1) r)).trans ?_
    have e1 : (fun a : Fin 1 => (ix2 (0 : Fin 1) r) a.succ) = ix1 r := funext fun a => by
      match a with
      | ⟨0, _⟩ => rfl
    rw [e1]
    exact colsum_at _ r

end Cert.KernelIdeal.Block

end
-- ==== Proof.KernelPoint.lean ====
/-
  One grid point against the whole arrays.

  The grid point for batch `bi` and tile `kt` of A pixels holds: as `x0` the channels of A pixels 512 * kt … 512 * kt + 511 of
  batch `bi`; as `x1` the channels of all B pixels of batch `bi`; as `x2` the weights of all B pixels against those
  A pixels. Then the block of weighted products is the array of weighted products restricted to those A pixels, the
  column sums run over all B pixels, and so entry (0, q, r) of what the point stores is the quotient form at
  (bi, q, 512 * kt + r).
-/
import proofs.«134228_j3435973837203_1_alg».proof.Proof.KernelBlock

noncomputable section

open Idealize.ShloMosaic Idealize.ShloMosaic.ValueIdx

namespace Cert.KernelIdeal.Block

open Cert.KernelIdeal Cert.KernelIdeal.Facts₀ Cert.Corr
open Cert.KernelIdeal.Gen (k0_pay1)

/-- A pixel `r` of tile `kt`: pixel 512 * kt + r of the image. -/
def tilePix (kt : Fin 8) (r : Fin 512) : Fin 4096 := ⟨512 * kt.val + r.val, by have := kt.isLt; have := r.isLt; omega⟩

theorem tilePix_val (kt : Fin 8) (r : Fin 512) : (tilePix kt r).val = 512 * kt.val + r.val := rfl

/-- The stored entry of a point, in terms of the three argument arrays. -/
theorem point_entry (x0 : Vec Ideal S1x512x256 .f32) (x1 : Vec Ideal S1x4096x256 .f32) (x2 : Vec Ideal S4096x512 .f32)
    (A B : SFeat.Idx → EReal) (W : SWgt.Idx → EReal) (bi kt : Fin 8)
    (h0 : ∀ (r : Fin 512) (c : Fin 256), x0 (ix3 0 r c) = A (ix4 bi (prow (tilePix kt r)) (pcol (tilePix kt r)) c))
    (h1 : ∀ (q : Fin 4096) (c : Fin 256), x1 (ix3 0 q c) = B (ix4 bi (prow q) (pcol q) c))
    (h2 : ∀ (q : Fin 4096) (r : Fin 512), x2 (ix2 q r) = W (ix3 (prow q) (pcol q) (tilePix kt r)))
    (q : Fin 4096) (r : Fin 512) :
    k0_pay1 (F := Ideal) x0 x1 x2 (ix3 0 q r) = quotientForm A B W (ix3 bi q (tilePix kt r)) := by
  have hp : ∀ q' : Fin 4096, prodBlk x0 x1 x2 (ix2 q' r) = weighted A B W bi q' (tilePix kt r) := fun q' => by
    rw [prodBlk_apply, h2]
    unfold weighted chanDot
    refine congrArg (· * W (ix3 (prow q') (pcol q') (tilePix kt r))) (Finset.sum_congr rfl fun c _ => ?_)
    rw [h1, h0]
  rw [pay_apply, hp q]
  show _ = Ideal.div (weighted A B W bi q (tilePix kt r)) (divisor A B W bi (tilePix kt r))
  unfold divisor
  simp only [hp]

end Cert.KernelIdeal.Block

end
-- ==== Proof.KernelArray.lean ====
/-
  From the grid points to the kernel's whole result.

  Before the region the three arguments are reshaped: the feature maps to [8, 4096, 256] and the weights to
  [4096, 4096], pixel p = 64 * row + column. Grid point t works on batch bi and tile kt of 512 A pixels, where
  (bi, 0, kt) is the block index of its output block; its three input blocks are rows of the reshaped arrays, so what
  it writes back is the quotient form restricted to its block (KernelPoint). The 64 output blocks tile the
  [8, 4096, 4096] array, so the array ends as the quotient form, and the reshape after the region splits the
  B pixel into row and column again.
-/
import proofs.«134228_j3435973837203_1_alg».proof.Proof.Gen.KernelIdeal.Frame
import proofs.«134228_j3435973837203_1_alg».proof.Proof.KernelPoint
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Block Cert.Corr

/-! ## Reshapes read at an entry -/

/-- Entry (b, p, c) of a feature map reshaped to [8, 4096, 256] is entry (b, row of p, column of p, c) of the map. -/
theorem flatFeat_apply (X : SFeat.Idx → EReal) (b : Fin 8) (p : Fin 4096) (c : Fin 256) :
    shapeCast S8x4096x256 X shapeCasts_S8x64x64x256_S8x4096x256 (ix3 b p c) = X (ix4 b (prow p) (pcol p) c) := by
  refine shapeCast_apply X _ (ix3 b p c) (ix4 b (prow p) (pcol p) c) ?_
  rewrite [Shape.rowMajor_val_four, Shape.rowMajor_val_three]
  have := b.isLt; have := p.isLt; have := c.isLt
  show ((b.val * 64 + p.val / 64) * 64 + p.val % 64) * 256 + c.val = (b.val * 4096 + p.val) * 256 + c.val
  omega

/-- Entry (q, k) of the weights reshaped to [4096, 4096] is entry (row of q, column of q, k) of the weights. -/
theorem flatWgt_apply (X : SWgt.Idx → EReal) (q k : Fin 4096) :
    shapeCast S4096x4096 X shapeCasts_S64x64x4096_S4096x4096 (ix2 q k) = X (ix3 (prow q) (pcol q) k) := by
  refine shapeCast_apply X _ (ix2 q k) (ix3 (prow q) (pcol q) k) ?_
  rewrite [Shape.rowMajor_val_three, Shape.rowMajor_val_two]
  have := q.isLt; have := k.isLt
  show (q.val / 64 * 64 + q.val % 64) * 4096 + k.val = q.val * 4096 + k.val
  omega

/-- Entry (b, h, w, k) of an [8, 4096, 4096] array reshaped to [8, 64, 64, 4096] is its entry (b, pixel (h, w), k). -/
theorem splitOut_apply (X : SFlat.Idx → EReal) (b : Fin 8) (h w : Fin 64) (k : Fin 4096) :
    shapeCast S8x64x64x4096 X shapeCasts_S8x4096x4096_S8x64x64x4096 (ix4 b h w k) = X (ix3 b (pix h w) k) := by
  refine shapeCast_apply X _ (ix4 b h w k) (ix3 b (pix h w) k) ?_
  rewrite [Shape.rowMajor_val_three, Shape.rowMajor_val_four]
  have := b.isLt; have := h.isLt; have := w.isLt; have := k.isLt
  show (b.val * 4096 + (h.val * 64 + w.val)) * 4096 + k.val = ((b.val * 64 + h.val) * 64 + w.val) * 4096 + k.val
  omega

/-- The quotient form reshaped is the quotient form with the B pixel as (row, column). -/
theorem splitOut_quotientForm (A B : SFeat.Idx → EReal) (W : SWgt.Idx → EReal) :
    shapeCast S8x64x64x4096 (quotientForm A B W) shapeCasts_S8x4096x4096_S8x64x64x4096 = quotientOut A B W := funext fun i => by
  obtain ⟨b, h, w, k, rfl⟩ : ∃ (b : Fin 8) (h w : Fin 64) (k : Fin 4096), i = ix4 b h w k := ⟨i 0, i 1, i 2, i 3, eq_ix4 i⟩
  exact splitOut_apply _ b h w k

variable (m : (ℓ : Loc nD τ sig) → Buf (Elt Ideal) ℓ) (ρ : Dev nD → PrngReg)

/-- The three argument arrays on core `c`. -/
abbrev argA (c : Dev nD) : SFeat.Idx → EReal := m ((c : Thread nD τ).loc main_arg0)
abbrev argB (c : Dev nD) : SFeat.Idx → EReal := m ((c : Thread nD τ).loc main_arg1)
abbrev argW (c : Dev nD) : SWgt.Idx → EReal := m ((c : Thread nD τ).loc main_arg2)

/-! ## The arrays the region finds -/

theorem V_v0 (c : Dev nD) : (V m c main_v0 : S8x4096x256.Idx → EReal) = shapeCast S8x4096x256 (argA m c) shapeCasts_S8x64x64x256_S8x4096x256 := by
  show StableHlo.after hostOps0 (fun b => m (c, b)) (Proc.devRef .tc main_v0) = _
  after_results <;> rfl
theorem V_v1 (c : Dev nD) : (V m c main_v1 : S8x4096x256.Idx → EReal) = shapeCast S8x4096x256 (argB m c) shapeCasts_S8x64x64x256_S8x4096x256 := by
  show StableHlo.after hostOps0 (fun b => m (c, b)) (Proc.devRef .tc main_v1) = _
  after_results <;> rfl
theorem V_v2 (c : Dev nD) : (V m c main_v2 : S4096x4096.Idx → EReal) = shapeCast S4096x4096 (argW m c) shapeCasts_S64x64x4096_S4096x4096 := by
  show StableHlo.after hostOps0 (fun b => m (c, b)) (Proc.devRef .tc main_v2) = _
  after_results <;> rfl

/-! ## The windows' block indices, decided over the 64 grid points -/

/-- With (bi, 0, kt) the output block's index at a point: the A block is (bi, kt, 0), the B block (bi, 0, 0), the
    weight block (0, kt). -/
theorem idx_facts : ∀ t : Fin cfg0.N,
    win0_0.index t (0 : Fin 3) = win0_3.index t (0 : Fin 3) ∧ win0_0.index t (1 : Fin 3) = win0_3.index t (2 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = win0_3.index t (2 : Fin 3)
    ∧ win0_3.index t (1 : Fin 3) = 0 ∧ win0_3.index t (0 : Fin 3) < 8 ∧ win0_3.index t (2 : Fin 3) < 8 :=
  (by decide +kernel : ∀ t : Fin grid0.N, _)

/-- Every (batch, tile) is some point's. -/
theorem idx_onto : ∀ (b kt : Fin 8), ∃ t : Fin cfg0.N, win0_3.index t = ![b.val, 0, kt.val] :=
  (by decide +kernel : ∀ (b kt : Fin 8), ∃ t : Fin grid0.N, win0_3.index t = ![b.val, 0, kt.val])

/-! ## The input blocks as entries of the arrays the region finds -/

theorem iblk0_at (c : Dev nD) (t : Fin cfg0.N) (y : S1x512x256.Idx) (i : S8x4096x256.Idx)
    (e0 : win0_0.index t (0 : Fin 3) * 1 + 1 * (y 0).val = (i 0).val)
    (e1 : win0_0.index t (1 : Fin 3) * 512 + 1 * (y 1).val = (i 1).val)
    (e2 : win0_0.index t (2 : Fin 3) * 256 + 1 * (y 2).val = (i 2).val) :
    (iblk m c 0 t : Vec Ideal S1x512x256 .f32) y = (V m c main_v0 : S8x4096x256.Idx → EReal) i := by
  show V m c main_v0 (((cfg0.win 0).blk t).view.emb y) = V m c main_v0 i
  refine congrArg _ (funext fun a => Fin.ext ?_)
  match a with
  | ⟨0, _⟩ => exact e0
  | ⟨1, _⟩ => exact e1
  | ⟨2, _⟩ => exact e2

theorem iblk1_at (c : Dev nD) (t : Fin cfg0.N) (y : S1x4096x256.Idx) (i : S8x4096x256.Idx)
    (e0 : win0_1.index t (0 : Fin 3) * 1 + 1 * (y 0).val = (i 0).val)
    (e1 : win0_1.index t (1 : Fin 3) * 4096 + 1 * (y 1).val = (i 1).val)
    (e2 : win0_1.index t (2 : Fin 3) * 256 + 1 * (y 2).val = (i 2).val) :
    (iblk m c 1 t : Vec Ideal S1x4096x256 .f32) y = (V m c main_v1 : S8x4096x256.Idx → EReal) i := by
  show V m c main_v1 (((cfg0.win 1).blk t).view.emb y) = V m c main_v1 i
  refine congrArg _ (funext fun a => Fin.ext ?_)
  match a with
  | ⟨0, _⟩ => exact e0
  | ⟨1, _⟩ => exact e1
  | ⟨2, _⟩ => exact e2

theorem iblk2_at (c : Dev nD) (t : Fin cfg0.N) (y : S4096x512.Idx) (i : S4096x4096.Idx)
    (e0 : win0_2.index t (0 : Fin 2) * 4096 + 1 * (y 0).val = (i 0).val)
    (e1 : win0_2.index t (1 : Fin 2) * 512 + 1 * (y 1).val = (i 1).val) :
    (iblk m c 2 t : Vec Ideal S4096x512 .f32) y = (V m c main_v2 : S4096x4096.Idx → EReal) i := by
  show V m c main_v2 (((cfg0.win 2).blk t).view.emb y) = V m c main_v2 i
  refine congrArg _ (funext fun a => Fin.ext ?_)
  match a with
  | ⟨0, _⟩ => exact e0
  | ⟨1, _⟩ => exact e1

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored block of point `t`, entry by entry, when its output block's index is (bi, 0, kt). -/
theorem stored_entry (c : Dev nD) (t : Fin cfg0.N) (bi kt : Fin 8)
    (hbi : win0_3.index t (0 : Fin 3) = bi.val) (hkt : win0_3.index t (2 : Fin 3) = kt.val) (j : S1x4096x512.Idx) :
    k0_pay1 (F := Ideal) (iblk m c 0 t) (iblk m c 1 t) (iblk m c 2 t) j
      = quotientForm (argA m c) (argB m c) (argW m c) (ix3 bi (j 1) (tilePix kt (j 2))) := by
  obtain ⟨e00, e01, e02, e10, e11, e12, e20, e21, e31, hb, hk⟩ := idx_facts t
  obtain ⟨j0, q, r, rfl⟩ : ∃ (j0 : Fin 1) (q : Fin 4096) (r : Fin 512), j = ix3 j0 q r := ⟨j 0, j 1, j 2, eq_ix3 j⟩
  obtain rfl : j0 = 0 := Subsingleton.elim _ _
  refine point_entry (iblk m c 0 t) (iblk m c 1 t) (iblk m c 2 t) (argA m c) (argB m c) (argW m c) bi kt ?_ ?_ ?_ q r
  · intro r c'
    refine (iblk0_at m c t (ix3 0 r c') (ix3 bi (tilePix kt r) c') ?_ ?_ ?_).trans
      ((congrFun (V_v0 m c) _).trans (flatFeat_apply _ bi (tilePix kt r) c'))
    · show win0_0.index t (0 : Fin 3) * 1 + 1 * 0 = bi.val; omega
    · show win0_0.index t (1 : Fin 3) * 512 + 1 * r.val = 512 * kt.val + r.val; omega
    · show win0_0.index t (2 : Fin 3) * 256 + 1 * c'.val = c'.val; omega
  · intro q c'
    refine (iblk1_at m c t (ix3 0 q c') (ix3 bi q c') ?_ ?_ ?_).trans
      ((congrFun (V_v1 m c) _).trans (flatFeat_apply _ bi q c'))
    · show win0_1.index t (0 : Fin 3) * 1 + 1 * 0 = bi.val; omega
    · show win0_1.index t (1 : Fin 3) * 4096 + 1 * q.val = q.val; omega
    · show win0_1.index t (2 : Fin 3) * 256 + 1 * c'.val = c'.val; omega
  · intro q r
    refine (iblk2_at m c t (ix2 q r) (ix2 q (tilePix kt r)) ?_ ?_).trans
      ((congrFun (V_v2 m c) _).trans (flatWgt_apply _ q (tilePix kt r)))
    · show win0_2.index t (0 : Fin 2) * 4096 + 1 * q.val = q.val; omega
    · show win0_2.index t (1 : Fin 2) * 512 + 1 * r.val = 512 * kt.val + r.val; omega

/-- WHAT POINT `t` WRITES BACK is block `t` of the quotient form of the argument arrays. -/
theorem flushed_eq (c : Dev nD) (t : Fin cfg0.N) :
    (dats m 0 c).flushed 3 t = ((cfg0.win 3).blk t).view.read (Elt Ideal) (quotientForm (argA m c) (argB m c) (argW m c)) := by
  show (cfg0.win 3).cut (grid0.coords t) ((dats m 0 c).after 3 t) = _
  rw [after0_3]
  unfold out0_3
  rw [View.canon_unit_zero hz3]
  simp only [View.ld_unit_zero (S := S1x512x256) hz3, View.ld_unit_zero (S := S1x4096x256) hz3, View.ld_unit_zero (S := S4096x512) hz2]
  obtain ⟨e00, e01, e02, e10, e11, e12, e20, e21, e31, hb, hk⟩ := idx_facts t
  funext j
  show k0_pay1 (F := Ideal) (iblk m c 0 t) (iblk m c 1 t) (iblk m c 2 t) j
    = quotientForm (argA m c) (argB m c) (argW m c) (((cfg0.win 3).blk t).view.emb j)
  refine (stored_entry m c t ⟨win0_3.index t (0 : Fin 3), hb⟩ ⟨win0_3.index t (2 : Fin 3), hk⟩ rfl rfl j).trans
    (congrArg (quotientForm (argA m c) (argB m c) (argW m c)) (funext fun a => Fin.ext ?_))
  match a with
  | ⟨0, _⟩ => show win0_3.index t (0 : Fin 3) = win0_3.index t (0 : Fin 3) * 1 + 1 * (j 0).val; have : (j 0).val < 1 := (j 0).isLt; omega
  | ⟨1, _⟩ => show (j 1).val = win0_3.index t (1 : Fin 3) * 4096 + 1 * (j 1).val; omega
  | ⟨2, _⟩ => show 512 * win0_3.index t (2 : Fin 3) + (j 2).val = win0_3.index t (2 : Fin 3) * 512 + 1 * (j 2).val; omega

/-! ## The cover and the final array -/

theorem mem_blk (t : Fin cfg0.N) (i : S8x4096x4096.Idx) :
    i ∈ ((cfg0.win 3).blk t).view.set ↔ ∀ a : Fin 3, win0_3.index t a * S1x4096x512.size a ≤ (i a).val ∧ (i a).val < win0_3.index t a * S1x4096x512.size a + S1x4096x512.size a := by
  show i ∈ ((View.whole main_v3).slice (win0_3.rect t)).set ↔ _
  rw [View.set_slice_whole, Rect.mem_set_unit]
  exact Iff.rfl

/-- Entry (b, q, k) lies in the block of the point for batch b and tile k / 512. -/
theorem covered (i : S8x4096x4096.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 4096 := (i 2).isLt
  obtain ⟨t, ht⟩ := idx_onto ⟨(i 0).val, h0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 512 ≤ (i 2).val ∧ (i 2).val < win0_3.index t (2 : Fin 3) * 512 + 512; omega

/-- THE REGION'S RESULT ARRAY after the run is the quotient form of the argument arrays. -/
theorem final (c : Dev nD) : (dats m 0 c).arrAt 3 cfg0.N = quotientForm (argA m c) (argB m c) (argW m c) :=
  (dats m 0 c).arrAt_eq_of_cover 3 _ (fun t _ => flushed_eq m c t) covered

/-! ## The reshape after the region, and the run -/

theorem tail_v4 (c : Dev nD) :
    Pipeline.afterTail₀ cfgs (dats m) 0 (V0 m) [hostOps1] c main_v4 = quotientOut (argA m c) (argB m c) (argW m c) := by
  unfold Pipeline.afterTail₀
  show StableHlo.after hostOps1 _ (Proc.devRef .tc main_v4) = _
  after_results
  show shapeCast S8x64x64x4096 (Pipeline.withArrays (cfgs 0).spec c (V0 m c) (fun w => (dats m 0 c).arrAt w (cfgs 0).N)
      (Proc.devRef .tc main_v3)) shapeCasts_S8x4096x4096_S8x64x64x4096 = _
  refine (congrArg (fun X : S8x4096x4096.Idx → EReal => shapeCast S8x64x64x4096 X shapeCasts_S8x4096x4096_S8x64x64x4096)
    ((Pipeline.withArrays_arr spec0 launch0.win.arr_inj c _ _ 3).trans (final m c))).trans ?_
  exact splitOut_quotientForm _ _ _

/-- THE KERNEL'S RUN, read: every weakly fair execution ends with the result at the quotient form of the argument
    arrays (the B pixel as row and column), the arguments unchanged. -/
theorem run : θ_run defs (onTc (τ := τ) (main (F := Ideal))) ⟨m, fun _ => 0, ρ⟩ fun r => ∀ c : Dev nD,
      r.2.mem ((c.tc : Thread nD τ).loc main_v4) = quotientOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Arr

end
-- ==== Proof.RefValue.lean ====
/-
  The reference, read entry by entry.

  The reference reshapes both feature maps to [8, 4096, 256] (pixel p = 64 * row + column), takes the batched inner
  products over the channels, reshapes the 4096 B pixels back to 64 × 64, multiplies by the weights, sums over the B
  pixel's row and column, adds eps, and multiplies each weighted product by the quotient of 1.0 by that sum. Entry
  (b, h, w, k) of the result is therefore the weighted product of B pixel (h, w) and A pixel k times 1 / divisor b k.
-/
import proofs.«134228_j3435973837203_1_alg».proof.Proof.Gen.ReferenceIdeal.Read
import proofs.«134228_j3435973837203_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.Corr

variable (x0 x1 : (⟨S8x64x64x256, .f32⟩ : BufTy).Contents (Elt Ideal)) (x2 : (⟨S64x64x4096, .f32⟩ : BufTy).Contents (Elt Ideal))

/-! ## The reshaped feature maps -/

/-- Row-major: entry (b, p, c) of a reshaped feature map is entry (b, row of p, column of p, c) of the map. -/
theorem flat_index (b : Fin 8) (p : Fin 4096) (c : Fin 256) :
    idx_main_v0 (ix3 b p c) = ix4 b (prow p) (pcol p) c := funext fun a => Fin.ext (by
  have hb := b.isLt; have hp := p.isLt; have hc := c.isLt
  match a with
  | ⟨0, _⟩ => show ((b.val * 4096 + p.val) * 256 + c.val) / 1048576 = b.val; omega
  | ⟨1, _⟩ => show ((b.val * 4096 + p.val) * 256 + c.val) / 16384 % 64 = p.val / 64; omega
  | ⟨2, _⟩ => show ((b.val * 4096 + p.val) * 256 + c.val) / 256 % 64 = p.val % 64; omega
  | ⟨3, _⟩ => show ((b.val * 4096 + p.val) * 256 + c.val) % 256 = c.val; omega)

theorem v0_at (b : Fin 8) (p : Fin 4096) (c : Fin 256) :
    val_main_v0 (F := Ideal) x0 (ix3 b p c) = x0 (ix4 b (prow p) (pcol p) c) := by
  rw [val_main_v0_apply]; exact congrArg x0 (flat_index b p c)

theorem v1_at (b : Fin 8) (p : Fin 4096) (c : Fin 256) :
    val_main_v1 (F := Ideal) x1 (ix3 b p c) = x1 (ix4 b (prow p) (pcol p) c) := by
  rw [val_main_v1_apply]; exact congrArg x1 (flat_index b p c)

/-! ## The inner products and their weighting -/

theorem v2_at (b : Fin 8) (q k : Fin 4096) :
    val_main_v2 (F := Ideal) x0 x1 (ix3 b q k) = chanDot x0 x1 b q k := by
  rw [val_main_v2_apply]
  unfold chanDot
  refine Finset.sum_congr rfl fun c _ => ?_
  have el : lidx_main_v2 (ix3 b q k) c = ix3 b q c := funext fun a => by
    match a with
    | ⟨0, _⟩ => rfl
    | ⟨1, _⟩ => rfl
    | ⟨2, _⟩ => rfl
  have er : ridx_main_v2 (ix3 b q k) c = ix3 b k c := funext fun a => by
    match a with
    | ⟨0, _⟩ => rfl
    | ⟨1, _⟩ => rfl
    | ⟨2, _⟩ => rfl
  rw [el, er, v1_at, v0_at]

theorem v3_at (b : Fin 8) (h w : Fin 64) (k : Fin 4096) :
    val_main_v3 (F := Ideal) x0 x1 (ix4 b h w k) = chanDot x0 x1 b (pix h w) k := by
  rw [val_main_v3_apply]
  have e : idx_main_v3 (ix4 b h w k) = ix3 b (pix h w) k := funext fun a => Fin.ext (by
    have hb := b.isLt; have hh := h.isLt; have hw := w.isLt; have hk := k.isLt
    match a with
    | ⟨0, _⟩ => show (((b.val * 64 + h.val) * 64 + w.val) * 4096 + k.val) / 16777216 = b.val; omega
    | ⟨1, _⟩ => show (((b.val * 64 + h.val) * 64 + w.val) * 4096 + k.val) / 4096 % 4096 = h.val * 64 + w.val; omega
    | ⟨2, _⟩ => show (((b.val * 64 + h.val) * 64 + w.val) * 4096 + k.val) % 4096 = k.val; omega)
  rw [e, v2_at]

theorem v5_at (b : Fin 8) (h w : Fin 64) (k : Fin 4096) :
    val_main_v5 (F := Ideal) x2 (ix4 b h w k) = x2 (ix3 h w k) := by
  rw [val_main_v5_apply, val_main_v4_apply]
  refine congrArg x2 (funext fun a => ?_)
  match a with
  | ⟨0, _⟩ => rfl
  | ⟨1, _⟩ => rfl
  | ⟨2, _⟩ => rfl

/-- The reference's weighted product at (b, h, w, k). -/
theorem v6_at (b : Fin 8) (h w : Fin 64) (k : Fin 4096) :
    val_main_v6 (F := Ideal) x0 x1 x2 (ix4 b h w k) = weighted x0 x1 x2 b (pix h w) k := by
  rw [val_main_v6_apply, v3_at, v5_at]
  unfold weighted
  rw [prow_pix, pcol_pix]
  rfl

/-! ## The sum over the B pixel's row and column -/

/-- The entries of an [8, 64, 64, 4096] array that reduce to (b, k) when the two middle axes are summed away are the
    entries (b, h, w, k): their sum is the double sum over h and w. -/
theorem sum_rows_cols (hR : S8x64x64x4096.ReducesTo [1, 2] S8x4096) (x : S8x64x64x4096.Idx → EReal) (b : Fin 8) (k : Fin 4096) :
    ∑ i ∈ Finset.univ.filter (fun i => hR.drop i = ix2 b k), x i = ∑ h : Fin 64, ∑ w : Fin 64, x (ix4 b h w k) := by
  rw [← Fintype.sum_prod_type']
  have key : ∀ i ∈ Finset.univ.filter (fun i => hR.drop i = ix2 b k), ix4 b (i 1 : Fin 64) (i 2 : Fin 64) k = i := fun i hi => by
    have hj := (Finset.mem_filter.1 hi).2
    have h0 : b.val = (i 0).val := (congrArg (fun j : S8x4096.Idx => (j 0).val) hj).symm.trans (hR.drop_apply_val_of_eq i 0 0)
    have h3 : k.val = (i 3).val := (congrArg (fun j : S8x4096.Idx => (j 1).val) hj).symm.trans (hR.drop_apply_val_of_eq i 1 3)
    funext a
    apply Fin.ext
    match a with
    | ⟨0, _⟩ => exact h0
    | ⟨1, _⟩ => rfl
    | ⟨2, _⟩ => rfl
    | ⟨3, _⟩ => exact h3
  refine Finset.sum_nbij' (fun i => ((i 1 : Fin 64), (i 2 : Fin 64))) (fun p => ix4 b p.1 p.2 k) ?_ ?_ key ?_ ?_
  · intro i _; exact Finset.mem_univ _
  · intro p _
    refine Finset.mem_filter.2 ⟨Finset.mem_univ _, funext fun a => Fin.ext ?_⟩
    match a with
    | ⟨0, _⟩ => exact hR.drop_apply_val_of_eq _ 0 0
    | ⟨1, _⟩ => exact hR.drop_apply_val_of_eq _ 1 3
  · intro p _; rfl
  · intro i hi; exact congrArg x (key i hi).symm

/-- The reference's sum at (b, k): the weighted products summed over all 4096 B pixels. -/
theorem v7_at (b : Fin 8) (k : Fin 4096) :
    val_main_v7 (F := Ideal) x0 x1 x2 (ix2 b k) = ∑ q : Fin 4096, weighted x0 x1 x2 b q k := by
  unfold val_main_v7 Host.reduceAdd
  rw [Ideal.hostReduceAdd_def]
  unfold Ideal.hostReduceAdd
  show Ideal.ofBits .f32 0x00000000#32 + ∑ i ∈ Finset.univ.filter (fun i => reducesTo_S8x64x64x4096_S8x4096_d1_2.drop i = ix2 b k), val_main_v6 (F := Ideal) x0 x1 x2 i = _
  rw [Ideal.ofBits_zero_f32, zero_add, sum_rows_cols, sum_pixels]
  exact Finset.sum_congr rfl fun h _ => Finset.sum_congr rfl fun w _ => v6_at x0 x1 x2 b h w k

/-! ## The divisor and the result -/

/-- The reference's divisor at (b, 0, 0, k). -/
theorem v10_at (b : Fin 8) (k : Fin 4096) :
    val_main_v10 (F := Ideal) x0 x1 x2 (ix4 b (0 : Fin 1) (0 : Fin 1) k) = divisor x0 x1 x2 b k := by
  rw [val_main_v10_apply, val_main_v8_apply, val_main_v9_apply, val_main_cst_0_apply]
  have e : idx_main_v8 (ix4 b (0 : Fin 1) (0 : Fin 1) k) = ix2 b k := funext fun a => by
    match a with
    | ⟨0, _⟩ => rfl
    | ⟨1, _⟩ => rfl
  rw [e, v7_at]
  rfl

/-- The reference's result at (b, h, w, k). -/
theorem v14_at (b : Fin 8) (h w : Fin 64) (k : Fin 4096) :
    val_main_v14 (F := Ideal) x0 x1 x2 (ix4 b h w k) = reciprocalOut x0 x1 x2 (ix4 b h w k) := by
  rw [val_main_v14_apply, v6_at, val_main_v13_apply]
  have e : idx_main_v13 (ix4 b h w k) = ix4 b (0 : Fin 1) (0 : Fin 1) k := funext fun a => by
    match a with
    | ⟨0, _⟩ => rfl
    | ⟨1, _⟩ => rfl
    | ⟨2, _⟩ => rfl
    | ⟨3, _⟩ => rfl
  rw [e, val_main_v12_apply, v10_at, val_main_v11_apply, val_main_cst_1_apply]
  rfl

/-- The reference's result array is the reciprocal form of the three argument arrays. -/
theorem result_eq : val_main_v14 (F := Ideal) x0 x1 x2 = reciprocalOut x0 x1 x2 := funext fun i => by
  obtain ⟨b, h, w, k, rfl⟩ : ∃ (b : Fin 8) (h w : Fin 64) (k : Fin 4096), i = ix4 b h w k := ⟨i 0, i 1, i 2, i 3, eq_ix4 i⟩
  exact v14_at x0 x1 x2 b h w k

end Cert.ReferenceIdeal.RefValue

end
-- ==== Proof.PreDivisor.lean ====
/-
  What the precondition says about the divisor.

  The precondition's last conjunct recomputes the reference's divisor — the same operations, in the same order, as the
  reference's own first eleven lines — and asks that every entry differ from zero. Read on the extended reals: for
  every batch b and A pixel k, divisor b k ≠ 0.
-/
import proofs.«134228_j3435973837203_1_alg».proof.Pre_finite_inputs
import proofs.«134228_j3435973837203_1_alg».proof.Proof.Gen.Pre_finite_inputs
import proofs.«134228_j3435973837203_1_alg».proof.Proof.RefValue
import Idealize.ShloMosaic.Lib.ReduceAll
import Idealize.ShloMosaic.Lib.Affine
import Idealize.ShloMosaic.Lib.StableHlo.Predicate

noncomputable section

open Idealize.ShloMosaic Idealize.ShloMosaic.ValueIdx

namespace Cert.Pre_finite_inputs.Decode

open Cert.Corr

instance : Subsingleton Cert.Pre_finite_inputs.S_.Idx := ⟨fun a b => funext fun d => d.elim0⟩

/-- Where the precondition holds, no divisor is zero: its last conjunct is "every entry of the recomputed divisor
    differs from zero", and the recomputed divisor is the reference's own. -/
theorem divisor_ne_zero (A B : (⟨Cert.Pre_finite_inputs.S8x64x64x256, .f32⟩ : BufTy).Contents (Elt Ideal))
    (W : (⟨Cert.Pre_finite_inputs.S64x64x4096, .f32⟩ : BufTy).Contents (Elt Ideal))
    (h : Cert.Pre_finite_inputs.fn (F := Ideal) A B W = fun _ => 1#1) (b : Fin 8) (k : Fin 4096) :
    divisor A B W b k ≠ 0 := by
  have e := congrFun h ix0
  unfold Cert.Pre_finite_inputs.fn Cert.Pre_finite_inputs.fn_part1 at e
  dsimp only at e
  have e2 := (IntOp.andi_eq_one.1 e).2
  have e3 := Host.reduce_andi_all _ _ _ _ _ e2 (ix4 b (0 : Fin 1) (0 : Fin 1) k)
  change Ideal.cmp .une (Cert.ReferenceIdeal.Read.val_main_v10 (F := Ideal) A B W (ix4 b (0 : Fin 1) (0 : Fin 1) k))
    (Ideal.ofBits .f32 0x00000000#32) = 1#1 at e3
  rw [Cert.ReferenceIdeal.RefValue.v10_at, Ideal.ofBits_zero_f32] at e3
  change BitVec.ofBool (decide (divisor A B W b k ≠ 0)) = 1#1 at e3
  exact of_decide_eq_true ((StableHlo.Predicate.ofBool_eq_one_iff _).1 e3)

end Cert.Pre_finite_inputs.Decode

end
-- ==== Proof.lean ====
/-
  The correlation layer: for every batch b, B pixel q and A pixel k,

    weighted b q k = (sum over channels c of B[b, q, c] * A[b, k, c]) * W[q, k],
    divisor b k    = (sum over all B pixels q of weighted b q k) + eps.

  The kernel tiles the A pixels by 512, forms each [4096, 512] block of weighted products with one matrix product,
  sums its columns and stores weighted / divisor; the reference forms all products at once and multiplies by
  1 / divisor. On the extended reals x / d and x * (1 / d) are both x * d⁻¹ as soon as d is not zero (Spec), and the
  precondition says exactly that no divisor is zero (PreDivisor): outside it the reference itself divides by zero.
  The kernel's side is read off its frame run (KernelBlock: one block; KernelPoint: a block against the arrays;
  KernelArray: the 64 blocks tile the result, and the reshapes around the region), the reference's off its run
  (RefValue). The word-level kernel needs only its frame; nothing was rewritten on the way to the idealized kernel.
-/
import proofs.«134228_j3435973837203_1_alg».proof.Defs
import proofs.«134228_j3435973837203_1_alg».proof.Proof.Gen.Kernel
import proofs.«134228_j3435973837203_1_alg».proof.Proof.Gen.Kernel.Skeleton
import proofs.«134228_j3435973837203_1_alg».proof.Proof.Gen.Kernel.Launch
import proofs.«134228_j3435973837203_1_alg».proof.Proof.Gen.Kernel.Points
import proofs.«134228_j3435973837203_1_alg».proof.Proof.Gen.Kernel.Frame
import proofs.«134228_j3435973837203_1_alg».proof.Proof.Gen.KernelIdeal
import proofs.«134228_j3435973837203_1_alg».proof.Proof.Gen.KernelIdeal.Skeleton
import proofs.«134228_j3435973837203_1_alg».proof.Proof.Gen.KernelIdeal.Launch
import proofs.«134228_j3435973837203_1_alg».proof.Proof.Gen.KernelIdeal.Points
import proofs.«134228_j3435973837203_1_alg».proof.Proof.Gen.KernelIdeal.Frame
import proofs.«134228_j3435973837203_1_alg».proof.Proof.Gen.ReferenceIdeal
import proofs.«134228_j3435973837203_1_alg».proof.Proof.Gen.Pre_finite_inputs
import proofs.«134228_j3435973837203_1_alg».proof.Proof.Gen.ReferenceIdeal.Run
import proofs.«134228_j3435973837203_1_alg».proof.Proof.Gen.ReferenceIdeal.Read
import proofs.«134228_j3435973837203_1_alg».proof.Proof.Spec
import proofs.«134228_j3435973837203_1_alg».proof.Proof.KernelArray
import proofs.«134228_j3435973837203_1_alg».proof.Proof.RefValue
import proofs.«134228_j3435973837203_1_alg».proof.Proof.PreDivisor
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- Both programs end at weighted * (1 / divisor): the reference by its run, the kernel at weighted / divisor, which is
    the same array because the precondition keeps every divisor off zero. -/
theorem algebraic : Cert.algebraic_KernelIdeal_ReferenceIdeal := by
  intro m ρ m' ρ' hpre hagree
  refine ⟨fun c => Cert.Corr.reciprocalOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.Arr.run m ρ)
    exact Cert.Corr.quotientOut_eq_reciprocalOut _ _ _ (Cert.Pre_finite_inputs.Decode.divisor_ne_zero _ _ _ (hpre c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
